-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S5120x1024 : Shape := ⟨2, ![5120, 1024]⟩
abbrev S5120 : Shape := ⟨1, ![5120]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S5120x1024 : S_.BroadcastsInDim S5120x1024 (![] : Fin 0 → Fin S5120x1024.rank)
  reducesTo_S5120x1024_S_d0_1 : S5120x1024.ReducesTo [0, 1] S_
  bcast_S_S5120 : S_.BroadcastsInDim S5120 (![] : Fin 0 → Fin S5120.rank)
  reducesTo_S5120_S_d0 : S5120.ReducesTo [0] S_

variable [Facts]

def fn_part2 {F : FTy → Type} [FloatOps F] (main_arg7 : FVec F S5120 .f32) (main_v33 : IVec S_ 1) : IVec S_ 1 :=
  let main_v34 : FVec F S5120 .f32 := Host.absf main_arg7
  let main_cst_12 : FVec F S_ .f32 := constant S_ .f32 0x7F800000#32
  let main_v35 : FVec F S5120 .f32 := broadcastInDim S5120 ![] bcast_S_S5120 main_cst_12
  let main_v36 : IVec S5120 1 := cmpf .olt main_v34 main_v35
  let main_c_13 : IVec S_ 1 := constantI S_ 1 1#1
  let main_v37 : IVec S_ 1 := (fun x v => Host.reduce IntOp.andi x v reducesTo_S5120_S_d0 h_S_) main_v36 main_c_13
  let main_v38 : IVec S_ 1 := andi main_v33 main_v37
  main_v38

def fn_part1 {F : FTy → Type} [FloatOps F] (main_arg4 : FVec F S5120x1024 .f32) (main_arg5 : FVec F S5120 .f32) (main_arg6 : FVec F S5120x1024 .f32) (main_arg7 : FVec F S5120 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S5120x1024 .f32 := Host.absf main_arg4
  let main_cst_6 : FVec F S_ .f32 := constant S_ .f32 0x7F800000#32
  let main_v20 : FVec F S5120x1024 .f32 := broadcastInDim S5120x1024 ![] bcast_S_S5120x1024 main_cst_6
  let main_v21 : IVec S5120x1024 1 := cmpf .olt main_v19 main_v20
  let main_c_7 : IVec S_ 1 := constantI S_ 1 1#1
  let main_v22 : IVec S_ 1 := (fun x v => Host.reduce IntOp.andi x v reducesTo_S5120x1024_S_d0_1 h_S_) main_v21 main_c_7
  let main_v23 : IVec S_ 1 := andi main_v18 main_v22
  let main_v24 : FVec F S5120 .f32 := Host.absf main_arg5
  let main_cst_8 : FVec F S_ .f32 := constant S_ .f32 0x7F800000#32
  let main_v25 : FVec F S5120 .f32 := broadcastInDim S5120 ![] bcast_S_S5120 main_cst_8
  let main_v26 : IVec S5120 1 := cmpf .olt main_v24 main_v25
  let main_c_9 : IVec S_ 1 := constantI S_ 1 1#1
  let main_v27 : IVec S_ 1 := (fun x v => Host.reduce IntOp.andi x v reducesTo_S5120_S_d0 h_S_) main_v26 main_c_9
  let main_v28 : IVec S_ 1 := andi main_v23 main_v27
  let main_v29 : FVec F S5120x1024 .f32 := Host.absf main_arg6
  let main_cst_10 : FVec F S_ .f32 := constant S_ .f32 0x7F800000#32
  let main_v30 : FVec F S5120x1024 .f32 := broadcastInDim S5120x1024 ![] bcast_S_S5120x1024 main_cst_10
  let main_v31 : IVec S5120x1024 1 := cmpf .olt main_v29 main_v30
  let main_c_11 : IVec S_ 1 := constantI S_ 1 1#1
  let main_v32 : IVec S_ 1 := (fun x v => Host.reduce IntOp.andi x v reducesTo_S5120x1024_S_d0_1 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S5120x1024 .f32) (main_arg5 : FVec F S5120 .f32) (main_arg6 : FVec F S5120x1024 .f32) (main_arg7 : FVec F S5120 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_v13 main_v16
-- ==== Kernel.lean ====
abbrev S16384x1024 : Shape := ⟨2, ![16384, 1024]⟩
abbrev S5120x1024 : Shape := ⟨2, ![5120, 1024]⟩
abbrev S5120 : Shape := ⟨1, ![5120]⟩
abbrev S256x1024 : Shape := ⟨2, ![256, 1024]⟩
abbrev S256x5120 : Shape := ⟨2, ![256, 5120]⟩
abbrev S1x5120 : Shape := ⟨2, ![1, 5120]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S5120x1024, .f32⟩
  | .hbm, ⟨5, _⟩ => ⟨S5120, .f32⟩
  | .hbm, ⟨6, _⟩ => ⟨S5120x1024, .f32⟩
  | .hbm, ⟨7, _⟩ => ⟨S5120, .f32⟩
  | .hbm, ⟨8, _⟩ => ⟨S5120x1024, .bf16⟩
  | .hbm, ⟨9, _⟩ => ⟨S5120x1024, .bf16⟩
  | .hbm, ⟨10, _⟩ => ⟨S16384x1024, .f32⟩
  | .hbm, ⟨11, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S5120x1024, .bf16⟩
  | .local _ .vmem, ⟨9, _⟩ => ⟨S5120x1024, .bf16⟩
  | .local _ .vmem, ⟨10, _⟩ => ⟨S5120, .f32⟩
  | .local _ .vmem, ⟨11, _⟩ => ⟨S5120, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5120x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5120x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S5120x1024_S5120x1024_0_0 : ∀ a, (![0, 0] : Fin 2 → Nat) a + S5120x1024.size a ≤ S5120x1024.size a
  h_S5120x1024 : 0 < S5120x1024.numel
  shapeCasts_S5120x1024_S5120x1024 : S5120x1024.ShapeCasts S5120x1024
  inb_S5120_S5120_0 : ∀ a, (![0] : Fin 1 → Nat) a + S5120.size a ≤ S5120.size a
  h_S5120 : 0 < S5120.numel
  shapeCasts_S5120_S1x5120 : S5120.ShapeCasts S1x5120
  broadcasts_S1x5120_S256x5120 : S1x5120.Broadcasts S256x5120
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x1024 : S256x5120.Slices ![0, 3072] S256x1024
  slices_S256x5120_o0_4096_S256x1024 : S256x5120.Slices ![0, 4096] S256x1024
  dot_S256x1024_S5120x1024_S256x5120_1_1_0_0_n_n_wf : DotDims.WF S256x1024 S5120x1024 S256x5120 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5120x1024.size a ≤ S5120x1024.size a
  hwx0_4 : ∀ i : grid0.Coords, EltTy.bits .bf16 = 32 ∨ (Rect.block (s := S5120x1024) S5120x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5120x1024.size a ≤ S5120x1024.size a
  hwx0_5 : ∀ i : grid0.Coords, EltTy.bits .bf16 = 32 ∨ (Rect.block (s := S5120x1024) S5120x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5120.size a ≤ S5120.size a
  hwx0_6 : ∀ i : grid0.Coords, EltTy.bits .f32 = 32 ∨ (Rect.block (s := S5120) S5120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5120.size a ≤ S5120.size a
  hwx0_7 : ∀ i : grid0.Coords, EltTy.bits .f32 = 32 ∨ (Rect.block (s := S5120) S5120.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x1024_S5120x1024_S256x5120_1_1_0_0_n_n : DotDims S256x1024 S5120x1024 S256x5120 where
  lhsContracting := [1]
  rhsContracting := [1]
  lhsNonContracting := [0]
  rhsNonContracting := [0]
  lhsBatch := []
  rhsBatch := []
  wf := dot_S256x1024_S5120x1024_S256x5120_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5120x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S5120x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S5120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S5120.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S5120x1024 : Shape := ⟨2, ![5120, 1024]⟩
abbrev S5120 : Shape := ⟨1, ![5120]⟩
abbrev S16384x5120 : Shape := ⟨2, ![16384, 5120]⟩
abbrev S1x5120 : Shape := ⟨2, ![1, 5120]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S5120x1024, .f32⟩
  | .hbm, ⟨5, _⟩ => ⟨S5120, .f32⟩
  | .hbm, ⟨6, _⟩ => ⟨S5120x1024, .f32⟩
  | .hbm, ⟨7, _⟩ => ⟨S5120, .f32⟩
  | .hbm, ⟨8, _⟩ => ⟨S16384x5120, .f32⟩
  | .hbm, ⟨9, _⟩ => ⟨S1x5120, .f32⟩
  | .hbm, ⟨10, _⟩ => ⟨S16384x5120, .f32⟩
  | .hbm, ⟨11, _⟩ => ⟨S16384x5120, .f32⟩
  | .hbm, ⟨12, _⟩ => ⟨S16384x5120, .f32⟩
  | .hbm, ⟨13, _⟩ => ⟨S16384x5120, .f32⟩
  | .hbm, ⟨14, _⟩ => ⟨S1x5120, .f32⟩
  | .hbm, ⟨15, _⟩ => ⟨S16384x5120, .f32⟩
  | .hbm, ⟨16, _⟩ => ⟨S16384x5120, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  bcast_S5120_S1x5120_1 : S5120.BroadcastsInDim S1x5120 (![1] : Fin 1 → Fin S1x5120.rank)
  bcast_S1x5120_S16384x5120_0_1 : S1x5120.BroadcastsInDim S16384x5120 (![0, 1] : Fin 2 → Fin S16384x5120.rank)
  slices_S16384x5120_S16384x1024_0_0 : S16384x5120.Slices ![0, 0] S16384x1024
  slices_S16384x5120_S16384x1024_0_1024 : S16384x5120.Slices ![0, 1024] S16384x1024
  slices_S16384x5120_S16384x1024_0_2048 : S16384x5120.Slices ![0, 2048] S16384x1024
  slices_S16384x5120_S16384x1024_0_3072 : S16384x5120.Slices ![0, 3072] S16384x1024
  slices_S16384x5120_S16384x1024_0_4096 : S16384x5120.Slices ![0, 4096] S16384x1024
  bcast_S_S16384x1024 : S_.BroadcastsInDim S16384x1024 (![] : Fin 0 → Fin S16384x1024.rank)
  dot_S16384x1024_S5120x1024_S16384x5120_1_1_0_0_n_n_wf : DotDims.WF S16384x1024 S5120x1024 S16384x5120 [1] [1] [0] [0] [] []

variable [Facts₀]

def dot_S16384x1024_S5120x1024_S16384x5120_1_1_0_0_n_n : DotDims S16384x1024 S5120x1024 S16384x5120 where
  lhsContracting := [1]
  rhsContracting := [1]
  lhsNonContracting := [0]
  rhsNonContracting := [0]
  lhsBatch := []
  rhsBatch := []
  wf := dot_S16384x1024_S5120x1024_S16384x5120_1_1_0_0_n_n_wf

class Facts : Prop extends Facts₀ where

variable [Facts]
-- ==== Proof.LstmSpec.lean ====
/-
  The mathematics of the certificate, with no program in sight: one step of an LSTM cell with a fifth, "scale" gate,
  as functions of extended reals.

  For one batch row — the row's input features xr, previous hidden state hr, previous cell state cr and
  per-unit dynamic weight dr, each of length 1024 — and the stacked weights wx, uh : [5120, 1024] and biases
  bx, bh : [5120] (gate order along the 5120 axis: input, forget, output, candidate, scale; 1024 columns each):

      pre g    = Σₖ xr k · wx (g, k)  +  Σₖ hr k · uh (g, k)  +  bx g  +  bh g
      cell j   = σ (pre (forget j)) · cr j  +  (σ (pre (input j)) · tanh (pre (candidate j))) · (σ (pre (scale j)) · dr j)
      hidden j = σ (pre (output j)) · tanh (cell j)

  with σ the logistic function and tanh, both as the ideal instance extends them to ±∞. A row of the result
  depends on the same row of the four batch arrays and on nothing else of them: the specification is stated per row,
  and a block of rows of the result is the same function of the same block of rows of the arguments.

  Two facts about spellings close the file: the four-term sum of "pre" may be taken in the order
  ((a + p) + b) + q (commutativity and associativity of + on the extended reals, which hold at the infinities
  too), and 1 / (1 + exp (−z)) with the float pattern of 1.0 for both ones is σ z.
-/
import Idealize.ShloMosaic.PureOps.Ideal
import Idealize.ShloMosaic.Lib.ValueIdx
import Idealize.ShloMosaic.Lib.IdealHost

noncomputable section

open scoped BigOperators

namespace Cert.Lstm

open Idealize.ShloMosaic Idealize.ShloMosaic.ValueIdx

/-- A two-axis array of extended reals. -/
abbrev Mat (r c : Nat) : Type := (⟨2, ![r, c]⟩ : Shape).Idx → EReal
/-- A one-axis array of extended reals. -/
abbrev Row (n : Nat) : Type := (⟨1, ![n]⟩ : Shape).Idx → EReal

/-- Row b of a two-axis array, as a function of the column. -/
def row {n c : Nat} (x : Mat n c) (b : Fin n) : Fin c → EReal := fun k => x (ix2 b k)

/-- Column j of the input gate among the 5·1024 stacked gate columns … -/
abbrev colI (j : Fin 1024) : Fin 5120 := ⟨j.val, by have := j.isLt; omega⟩
/-- … of the forget gate … -/
abbrev colF (j : Fin 1024) : Fin 5120 := ⟨j.val + 1024, by have := j.isLt; omega⟩
/-- … of the output gate … -/
abbrev colO (j : Fin 1024) : Fin 5120 := ⟨j.val + 2048, by have := j.isLt; omega⟩
/-- … of the candidate … -/
abbrev colC (j : Fin 1024) : Fin 5120 := ⟨j.val + 3072, by have := j.isLt; omega⟩
/-- … and of the scale gate. -/
abbrev colS (j : Fin 1024) : Fin 5120 := ⟨j.val + 4096, by have := j.isLt; omega⟩

/-- The pre-activation of stacked gate column g for one batch row: both projections and both biases. -/
def pre (xr hr : Fin 1024 → EReal) (wx uh : Mat 5120 1024) (bx bh : Row 5120) (g : Fin 5120) : EReal :=
  (∑ k : Fin 1024, xr k * wx (ix2 g k)) + (∑ k : Fin 1024, hr k * uh (ix2 g k)) + bx (ix1 g) + bh (ix1 g)

/-- The new cell state at unit j of one batch row. -/
def cell (xr hr cr dr : Fin 1024 → EReal) (wx uh : Mat 5120 1024) (bx bh : Row 5120) (j : Fin 1024) : EReal :=
  Ideal.logistic (pre xr hr wx uh bx bh (colF j)) * cr j
    + Ideal.logistic (pre xr hr wx uh bx bh (colI j)) * Ideal.tanh (pre xr hr wx uh bx bh (colC j))
        * (Ideal.logistic (pre xr hr wx uh bx bh (colS j)) * dr j)

/-- The new hidden state at unit j of one batch row. -/
def hidden (xr hr cr dr : Fin 1024 → EReal) (wx uh : Mat 5120 1024) (bx bh : Row 5120) (j : Fin 1024) : EReal :=
  Ideal.logistic (pre xr hr wx uh bx bh (colO j)) * Ideal.tanh (cell xr hr cr dr wx uh bx bh j)

/-- The new cell state of every row of a batch of n rows, as one array. -/
def cellArr {n : Nat} (x h cp dw : Mat n 1024) (wx uh : Mat 5120 1024) (bx bh : Row 5120) : Mat n 1024 :=
  fun i => cell (row x (i 0)) (row h (i 0)) (row cp (i 0)) (row dw (i 0)) wx uh bx bh (i 1)

/-- The new hidden state of every row of a batch of n rows, as one array. -/
def hiddenArr {n : Nat} (x h cp dw : Mat n 1024) (wx uh : Mat 5120 1024) (bx bh : Row 5120) : Mat n 1024 :=
  fun i => hidden (row x (i 0)) (row h (i 0)) (row cp (i 0)) (row dw (i 0)) wx uh bx bh (i 1)

/-- The pre-activation summed in the order "first projection, first bias, second projection, second bias". -/
theorem pre_other_order (xr hr : Fin 1024 → EReal) (wx uh : Mat 5120 1024) (bx bh : Row 5120) (g : Fin 5120) :
    (∑ k : Fin 1024, xr k * wx (ix2 g k)) + bx (ix1 g) + (∑ k : Fin 1024, hr k * uh (ix2 g k)) + bh (ix1 g)
      = pre xr hr wx uh bx bh g := by
  unfold pre
  rw [add_right_comm (∑ k : Fin 1024, xr k * wx (ix2 g k)) (bx (ix1 g))]

/-- The logistic function spelled out with the float pattern of 1.0: 1 / (1 + exp (−z)). -/
theorem logistic_spelled (z : EReal) :
    Ideal.div (Ideal.ofBits .f32 0x3F800000#32) (Ideal.ofBits .f32 0x3F800000#32 + Ideal.exp (-z)) = Ideal.logistic z := by
  rw [Ideal.ofBits_one_f32]
  rfl

end Cert.Lstm

end
-- ==== Proof.KernelGates.lean ====
/-
  The kernel body's first value — the stacked pre-activations of a block of 256 batch rows, a [256, 5120] array —
  read at one element, at the ideal instance.

  The body narrows its two f32 blocks to bf16 (the identity on extended reals), multiplies each by a whole
  [5120, 1024] weight array contracting the 1024-axis of both operands into a zero accumulator (a plain sum of
  products over k), adds the two products, and adds each bias after laying it out as one row [1, 5120] repeated
  over the 256 rows. So the element at row r and stacked gate column g is the specification's pre-activation of
  row r of the two blocks at column g.
-/
import proofs.«100891_j49306224558689_1_alg».proof.Proof.Gen.KernelIdeal.Skeleton
import proofs.«100891_j49306224558689_1_alg».proof.Proof.LstmSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Gates

open Cert.KernelIdeal Cert.KernelIdeal.Gen Idealize.ShloMosaic Idealize.ShloMosaic.ValueIdx Cert.Lstm

/-! The body's contraction record pairs rows of the left operand with rows of the right over their shared 1024-axis:
    which coordinate of each operand index comes from the output index and which from the contraction index. -/

theorem lhs_D_0 (i : S256x5120.Idx) (q : dot_S256x1024_S5120x1024_S256x5120_1_1_0_0_n_n.contr.Idx) :
    (dot_S256x1024_S5120x1024_S256x5120_1_1_0_0_n_n.lhsIdx i q 0).val = (i 0).val := by
  unfold DotDims.lhsIdx
  rw [dif_neg (show ¬(0 : Fin S256x1024.rank) ∈ dot_S256x1024_S5120x1024_S256x5120_1_1_0_0_n_n.lhsBatch by decide), dif_pos (show (0 : Fin S256x1024.rank) ∈ dot_S256x1024_S5120x1024_S256x5120_1_1_0_0_n_n.lhsNonContracting by decide)]
  rfl
theorem lhs_D_1 (i : S256x5120.Idx) (q : dot_S256x1024_S5120x1024_S256x5120_1_1_0_0_n_n.contr.Idx) :
    (dot_S256x1024_S5120x1024_S256x5120_1_1_0_0_n_n.lhsIdx i q 1).val = (q ⟨0, by decide⟩).val :=
  dot_S256x1024_S5120x1024_S256x5120_1_1_0_0_n_n.lhsIdx_val_of_single rfl i q
theorem rhs_D_0 (i : S256x5120.Idx) (q : dot_S256x1024_S5120x1024_S256x5120_1_1_0_0_n_n.contr.Idx) :
    (dot_S256x1024_S5120x1024_S256x5120_1_1_0_0_n_n.rhsIdx i q 0).val = (i 1).val := by
  unfold DotDims.rhsIdx
  rw [dif_neg (show ¬(0 : Fin S5120x1024.rank) ∈ dot_S256x1024_S5120x1024_S256x5120_1_1_0_0_n_n.rhsBatch by decide), dif_pos (show (0 : Fin S5120x1024.rank) ∈ dot_S256x1024_S5120x1024_S256x5120_1_1_0_0_n_n.rhsNonContracting by decide)]
  rfl
theorem rhs_D_1 (i : S256x5120.Idx) (q : dot_S256x1024_S5120x1024_S256x5120_1_1_0_0_n_n.contr.Idx) :
    (dot_S256x1024_S5120x1024_S256x5120_1_1_0_0_n_n.rhsIdx i q 1).val = (q ⟨0, by decide⟩).val :=
  dot_S256x1024_S5120x1024_S256x5120_1_1_0_0_n_n.rhsIdx_val_of_single rfl i q

/-- A block of 256 rows times a whole weight array, into a zero accumulator, at (r, g): the sum over k of
    row r of the block at k times row g of the weights at k. -/
theorem matmul_block_apply (a : FVec Ideal S256x1024 .bf16) (w : FVec Ideal S5120x1024 .bf16) (r : Fin 256) (g : Fin 5120) :
    matmul dot_S256x1024_S5120x1024_S256x5120_1_1_0_0_n_n none a w (constant S256x5120 .f32 0x00000000#32) (ix2 r g)
      = ∑ k : Fin 1024, a (ix2 r k) * w (ix2 g k) := by
  simp only [matmul]
  rw [Ideal.matmul_constant_zero_apply, ← Equiv.sum_comp (ValueIdx.contrEquiv1 dot_S256x1024_S5120x1024_S256x5120_1_1_0_0_n_n 1024 rfl rfl).symm]
  refine Finset.sum_congr rfl fun k _ => ?_
  have hk := ValueIdx.contrEquiv1_symm_val dot_S256x1024_S5120x1024_S256x5120_1_1_0_0_n_n 1024 rfl rfl k
  have el : dot_S256x1024_S5120x1024_S256x5120_1_1_0_0_n_n.lhsIdx (ix2 r g) ((ValueIdx.contrEquiv1 dot_S256x1024_S5120x1024_S256x5120_1_1_0_0_n_n 1024 rfl rfl).symm k) = ix2 r k := funext fun ax => Fin.ext (by
    match ax with
    | ⟨0, _⟩ => exact lhs_D_0 _ _
    | ⟨1, _⟩ => exact (lhs_D_1 _ _).trans hk)
  have er : dot_S256x1024_S5120x1024_S256x5120_1_1_0_0_n_n.rhsIdx (ix2 r g) ((ValueIdx.contrEquiv1 dot_S256x1024_S5120x1024_S256x5120_1_1_0_0_n_n 1024 rfl rfl).symm k) = ix2 g k := funext fun ax => Fin.ext (by
    match ax with
    | ⟨0, _⟩ => exact rhs_D_0 _ _
    | ⟨1, _⟩ => exact (rhs_D_1 _ _).trans hk)
  rw [el, er]

/-- A bias vector laid out as one row and repeated over the 256 rows reads, at (r, g), the bias at g. -/
theorem bias_rows_apply (b : Vec Ideal S5120 .f32) (r : Fin 256) (g : Fin 5120) :
    broadcastTo S256x5120 (shapeCast S1x5120 b shapeCasts_S5120_S1x5120) broadcasts_S1x5120_S256x5120 (ix2 r g) = b (ix1 g) := by
  rw [broadcastTo_1b_ab_apply, shapeCast_a_1a_apply]

/-- The stacked pre-activations of the block at (r, g) are the specification's, of row r of the two blocks. -/
theorem pay1_apply (v0 v2 : Vec Ideal S256x1024 .f32) (v4 v7 : Vec Ideal S5120x1024 .bf16) (v11 v15 : Vec Ideal S5120 .f32)
    (r : Fin 256) (g : Fin 5120) :
    k0_pay1 (F := Ideal) v0 v2 v4 v7 v11 v15 (ix2 r g) = pre (row v0 r) (row v2 r) v4 v7 v11 v15 g := by
  unfold k0_pay1
  rw [addf_apply, addf_apply, addf_apply, bias_rows_apply, bias_rows_apply, matmul_block_apply, matmul_block_apply]
  simp only [shapeCast_self]
  rfl

end Cert.KernelIdeal.Gates

end
-- ==== Proof.KernelBlocks.lean ====
/-
  From the kernel's blocks to its two result arrays, at the ideal instance.

  The grid has 64 points; point t works on batch rows 256·t … 256·t + 255: it reads those rows of x, of the previous
  hidden and cell states and of the dynamic weight, reads both weight arrays and both biases whole, and writes
  back those rows of the new hidden state (first result) and of the new cell state (second result).

  * What a point leaves in each output block, at row r and unit j of the block, is the specification's hidden
    (cell) value for row r of the four input blocks: the block is one index-by-index function of the stacked
    pre-activations read at the five gates' columns, and those are the specification's pre-activations.
  * Row r of an input block at point t is row 256·t + r of its array; a weight or bias block is its whole array.
    So what point t writes back is block t of the specification's array.
  * The 64 blocks tile the array (row b lies in block b / 256), so each result array ends holding the
    specification's array of the arrays the region finds; the weights it finds are the arguments narrowed to
    bf16, which on extended reals is no change.
-/
import proofs.«100891_j49306224558689_1_alg».proof.Proof.Gen.KernelIdeal.Value
import proofs.«100891_j49306224558689_1_alg».proof.Proof.KernelGates
import proofs.«100891_j49306224558689_1_alg».proof.Proof.LstmSpec
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Blocks

open Cert.KernelIdeal Cert.KernelIdeal.Gen Cert.KernelIdeal.Value Cert.KernelIdeal.Gates
open Idealize.ShloMosaic Idealize.ShloMosaic.TcCoe Idealize.SL.Sem Idealize.ShloMosaic.ValueIdx Cert.Lstm
open Idealize.ShloMosaic.Pipeline (Dat)

/-! ## One point: the output blocks as the specification of the input blocks -/

theorem hz2 : (![0, 0] : Fin 2 → Nat) = fun _ => 0 := funext fun a => by fin_cases a <;> rfl
theorem hz1 : (![0] : Fin 1 → Nat) = fun _ => 0 := funext fun a => by fin_cases a; rfl

/-! Where the block index (r, j) reads the stacked pre-activations and the two pointwise operands. -/

theorem ix8_0_eq (r : Fin 256) (j : Fin 1024) : ix8_0 (ix2 r j) = ix2 r (colO j) :=
  funext fun a => by match a with | ⟨0, _⟩ => rfl | ⟨1, _⟩ => rfl
theorem ix8_1_eq (r : Fin 256) (j : Fin 1024) : ix8_1 (ix2 r j) = ix2 r (colF j) :=
  funext fun a => by match a with | ⟨0, _⟩ => rfl | ⟨1, _⟩ => rfl
theorem ix8_2_eq (r : Fin 256) (j : Fin 1024) : ix8_2 (ix2 r j) = ix2 r j :=
  funext fun a => by match a with | ⟨0, _⟩ => rfl | ⟨1, _⟩ => rfl
theorem ix8_3_eq (r : Fin 256) (j : Fin 1024) : ix8_3 (ix2 r j) = ix2 r (colI j) :=
  funext fun a => by match a with | ⟨0, _⟩ => rfl | ⟨1, _⟩ => rfl
theorem ix8_4_eq (r : Fin 256) (j : Fin 1024) : ix8_4 (ix2 r j) = ix2 r (colC j) :=
  funext fun a => by match a with | ⟨0, _⟩ => rfl | ⟨1, _⟩ => rfl
theorem ix8_5_eq (r : Fin 256) (j : Fin 1024) : ix8_5 (ix2 r j) = ix2 r (colS j) :=
  funext fun a => by match a with | ⟨0, _⟩ => rfl | ⟨1, _⟩ => rfl
theorem ix8_6_eq (r : Fin 256) (j : Fin 1024) : ix8_6 (ix2 r j) = ix2 r j :=
  funext fun a => by match a with | ⟨0, _⟩ => rfl | ⟨1, _⟩ => rfl
theorem ix9_0_eq (r : Fin 256) (j : Fin 1024) : ix9_0 (ix2 r j) = ix2 r (colF j) :=
  funext fun a => by match a with | ⟨0, _⟩ => rfl | ⟨1, _⟩ => rfl
theorem ix9_1_eq (r : Fin 256) (j : Fin 1024) : ix9_1 (ix2 r j) = ix2 r j :=
  funext fun a => by match a with | ⟨0, _⟩ => rfl | ⟨1, _⟩ => rfl
theorem ix9_2_eq (r : Fin 256) (j : Fin 1024) : ix9_2 (ix2 r j) = ix2 r (colI j) :=
  funext fun a => by match a with | ⟨0, _⟩ => rfl | ⟨1, _⟩ => rfl
theorem ix9_3_eq (r : Fin 256) (j : Fin 1024) : ix9_3 (ix2 r j) = ix2 r (colC j) :=
  funext fun a => by match a with | ⟨0, _⟩ => rfl | ⟨1, _⟩ => rfl
theorem ix9_4_eq (r : Fin 256) (j : Fin 1024) : ix9_4 (ix2 r j) = ix2 r (colS j) :=
  funext fun a => by match a with | ⟨0, _⟩ => rfl | ⟨1, _⟩ => rfl
theorem ix9_5_eq (r : Fin 256) (j : Fin 1024) : ix9_5 (ix2 r j) = ix2 r j :=
  funext fun a => by match a with | ⟨0, _⟩ => rfl | ⟨1, _⟩ => rfl

/-- The cell-state block at (r, j): the specification's cell value of row r of the four input blocks. -/
theorem E9_apply (P0 P1 : Vec Ideal S256x1024 .f32) (P2 P3 : Vec Ideal S5120x1024 .bf16) (P4 P5 : Vec Ideal S5120 .f32)
    (P6 P7 : Vec Ideal S256x1024 .f32) (r : Fin 256) (j : Fin 1024) :
    E9 (F := Ideal) P0 P1 P2 P3 P4 P5 P6 P7 (ix2 r j) = cell (row P0 r) (row P1 r) (row P6 r) (row P7 r) P2 P3 P4 P5 j := by
  show FloatOps.addf (FloatOps.mulf (FloatOps.logistic ((k0_pay1 P0 P1 P2 P3 P4 P5) (ix9_0 (ix2 r j)))) (P6 (ix9_1 (ix2 r j)))) (FloatOps.mulf (FloatOps.mulf (FloatOps.logistic ((k0_pay1 P0 P1 P2 P3 P4 P5) (ix9_2 (ix2 r j)))) (FloatOps.tanh ((k0_pay1 P0 P1 P2 P3 P4 P5) (ix9_3 (ix2 r j))))) (FloatOps.mulf (FloatOps.logistic ((k0_pay1 P0 P1 P2 P3 P4 P5) (ix9_4 (ix2 r j)))) (P7 (ix9_5 (ix2 r j))))) = _
  rw [ix9_0_eq, ix9_1_eq, ix9_2_eq, ix9_3_eq, ix9_4_eq, ix9_5_eq, pay1_apply, pay1_apply, pay1_apply, pay1_apply]
  rfl

/-- The hidden-state block at (r, j): the specification's hidden value of row r of the four input blocks. -/
theorem E8_apply (P0 P1 : Vec Ideal S256x1024 .f32) (P2 P3 : Vec Ideal S5120x1024 .bf16) (P4 P5 : Vec Ideal S5120 .f32)
    (P6 P7 : Vec Ideal S256x1024 .f32) (r : Fin 256) (j : Fin 1024) :
    E8 (F := Ideal) P0 P1 P2 P3 P4 P5 P6 P7 (ix2 r j) = hidden (row P0 r) (row P1 r) (row P6 r) (row P7 r) P2 P3 P4 P5 j := by
  show FloatOps.mulf (FloatOps.logistic ((k0_pay1 P0 P1 P2 P3 P4 P5) (ix8_0 (ix2 r j)))) (FloatOps.tanh (FloatOps.addf (FloatOps.mulf (FloatOps.logistic ((k0_pay1 P0 P1 P2 P3 P4 P5) (ix8_1 (ix2 r j)))) (P6 (ix8_2 (ix2 r j)))) (FloatOps.mulf (FloatOps.mulf (FloatOps.logistic ((k0_pay1 P0 P1 P2 P3 P4 P5) (ix8_3 (ix2 r j)))) (FloatOps.tanh ((k0_pay1 P0 P1 P2 P3 P4 P5) (ix8_4 (ix2 r j))))) (FloatOps.mulf (FloatOps.logistic ((k0_pay1 P0 P1 P2 P3 P4 P5) (ix8_5 (ix2 r j)))) (P7 (ix8_6 (ix2 r j))))))) = _
  rw [ix8_0_eq, ix8_1_eq, ix8_2_eq, ix8_3_eq, ix8_4_eq, ix8_5_eq, ix8_6_eq, pay1_apply, pay1_apply, pay1_apply, pay1_apply, pay1_apply]
  rfl

/-- What the body leaves in the hidden-state block, from the eight input blocks. -/
theorem out8_apply (x0 x1 x2 x3 : Vec Ideal S256x1024 .f32) (x4 x5 : Vec Ideal S5120x1024 .bf16) (x6 x7 : Vec Ideal S5120 .f32)
    (r : Fin 256) (j : Fin 1024) :
    out0_8 (F := Ideal) x0 x1 x2 x3 x4 x5 x6 x7 (ix2 r j) = hidden (row x0 r) (row x1 r) (row x2 r) (row x3 r) x4 x5 x6 x7 j := by
  unfold out0_8
  rw [canon8_eq]
  simp only [View.ld_unit_zero (S := S256x1024) hz2, View.ld_unit_zero (S := S5120x1024) hz2, View.ld_unit_zero (S := S5120) hz1]
  exact E8_apply x0 x1 x4 x5 x6 x7 x2 x3 r j

/-- What the body leaves in the cell-state block, from the eight input blocks. -/
theorem out9_apply (x0 x1 x2 x3 : Vec Ideal S256x1024 .f32) (x4 x5 : Vec Ideal S5120x1024 .bf16) (x6 x7 : Vec Ideal S5120 .f32)
    (r : Fin 256) (j : Fin 1024) :
    out0_9 (F := Ideal) x0 x1 x2 x3 x4 x5 x6 x7 (ix2 r j) = cell (row x0 r) (row x1 r) (row x2 r) (row x3 r) x4 x5 x6 x7 j := by
  unfold out0_9
  rw [canon9_eq]
  simp only [View.ld_unit_zero (S := S256x1024) hz2, View.ld_unit_zero (S := S5120x1024) hz2, View.ld_unit_zero (S := S5120) hz1]
  exact E9_apply x0 x1 x4 x5 x6 x7 x2 x3 r j

/-! ## The grid: which rows each point's blocks hold -/

variable (m : (ℓ : Loc nD τ sig) → Buf (Elt Ideal) ℓ) (ρ : Dev nD → PrngReg)

/-- The printed index maps over the 64 points: the four batch inputs and the two outputs are at block row t, block
    column 0; the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- There are 64 points. -/
theorem point_lt : ∀ t : Fin cfg0.N, t.val < 64 := (by decide +kernel : ∀ t : Fin grid0.N, t.val < 64)

/-- Every block row is some point's. -/
theorem point_of_block : ∀ q : Fin 64, ∃ t : Fin cfg0.N, t.val = q.val :=
  (by decide +kernel : ∀ q : Fin 64, ∃ t : Fin grid0.N, t.val = q.val)

/-- The batch row that row r of point t's blocks is. -/
def brow (t : Fin cfg0.N) (r : Fin 256) : Fin 16384 := ⟨256 * t.val + r.val, by have := point_lt t; have := r.isLt; omega⟩

/-- Row r of the x block at point t is row 256·t + r of x. -/
theorem rows0 (c : Dev nD) (t : Fin cfg0.N) (r : Fin 256) :
    row (iblk m c 0 t : Vec Ideal S256x1024 .f32) r = row (V m c main_arg0 : Vec Ideal S16384x1024 .f32) (brow t r) := by
  obtain ⟨e0, e1, -⟩ := idx_facts t
  funext k
  show (iblk m c 0 t : Vec Ideal S256x1024 .f32) (ix2 r k) = (V m c main_arg0 : Vec Ideal S16384x1024 .f32) (ix2 (brow t r) k)
  unfold iblk
  rw [View.read_apply]
  show V m c main_arg0 _ = V m c main_arg0 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega

/-- Row r of the previous-hidden-state block at point t is row 256·t + r of that array. -/
theorem rows1 (c : Dev nD) (t : Fin cfg0.N) (r : Fin 256) :
    row (iblk m c 1 t : Vec Ideal S256x1024 .f32) r = row (V m c main_arg1 : Vec Ideal S16384x1024 .f32) (brow t r) := by
  obtain ⟨-, -, e0, e1, -⟩ := idx_facts t
  funext k
  show (iblk m c 1 t : Vec Ideal S256x1024 .f32) (ix2 r k) = (V m c main_arg1 : Vec Ideal S16384x1024 .f32) (ix2 (brow t r) k)
  unfold iblk
  rw [View.read_apply]
  show V m c main_arg1 _ = V m c main_arg1 _
  congr 1
  funext a
  apply Fin.ext
  match a with
  | ⟨0, _⟩ => show win0_1.index t (0 : Fin 2) * 256 + 1 * r.val = 256 * t.val + r.val; rw [e0]; omega
  | ⟨1, _⟩ => show win0_1.index t (1 : Fin 2) * 1024 + 1 * k.val = k.val; rw [e1]; omega

/-- Row r of the previous-cell-state block at point t is row 256·t + r of that array. -/
theorem rows2 (c : Dev nD) (t : Fin cfg0.N) (r : Fin 256) :
    row (iblk m c 2 t : Vec Ideal S256x1024 .f32) r = row (V m c main_arg2 : Vec Ideal S16384x1024 .f32) (brow t r) := by
  obtain ⟨-, -, -, -, e0, e1, -⟩ := idx_facts t
  funext k
  show (iblk m c 2 t : Vec Ideal S256x1024 .f32) (ix2 r k) = (V m c main_arg2 : Vec Ideal S16384x1024 .f32) (ix2 (brow t r) k)
  unfold iblk
  rw [View.read_apply]
  show V m c main_arg2 _ = V m c main_arg2 _
  congr 1
  funext a
  apply Fin.ext
  match a with
  | ⟨0, _⟩ => show win0_2.index t (0 : Fin 2) * 256 + 1 * r.val = 256 * t.val + r.val; rw [e0]; omega
  | ⟨1, _⟩ => show win0_2.index t (1 : Fin 2) * 1024 + 1 * k.val = k.val; rw [e1]; omega

/-- Row r of the dynamic-weight block at point t is row 256·t + r of that array. -/
theorem rows3 (c : Dev nD) (t : Fin cfg0.N) (r : Fin 256) :
    row (iblk m c 3 t : Vec Ideal S256x1024 .f32) r = row (V m c main_arg3 : Vec Ideal S16384x1024 .f32) (brow t r) := by
  obtain ⟨-, -, -, -, -, -, e0, e1, -⟩ := idx_facts t
  funext k
  show (iblk m c 3 t : Vec Ideal S256x1024 .f32) (ix2 r k) = (V m c main_arg3 : Vec Ideal S16384x1024 .f32) (ix2 (brow t r) k)
  unfold iblk
  rw [View.read_apply]
  show V m c main_arg3 _ = V m c main_arg3 _
  congr 1
  funext a
  apply Fin.ext
  match a with
  | ⟨0, _⟩ => show win0_3.index t (0 : Fin 2) * 256 + 1 * r.val = 256 * t.val + r.val; rw [e0]; omega
  | ⟨1, _⟩ => show win0_3.index t (1 : Fin 2) * 1024 + 1 * k.val = k.val; rw [e1]; omega

/-- The input-projection weights' block at any point is the whole array. -/
theorem whole4 (c : Dev nD) (t : Fin cfg0.N) : (iblk m c 4 t : Vec Ideal S5120x1024 .bf16) = V m c main_v0 := by
  obtain ⟨-, -, -, -, -, -, -, -, e0, e1, -⟩ := idx_facts t
  funext y
  unfold iblk
  rw [View.read_apply]
  show V m c main_v0 _ = V m c main_v0 y
  congr 1
  funext a
  apply Fin.ext
  match a with
  | ⟨0, _⟩ => show win0_4.index t (0 : Fin 2) * 5120 + 1 * (y 0).val = (y 0).val; rw [e0]; omega
  | ⟨1, _⟩ => show win0_4.index t (1 : Fin 2) * 1024 + 1 * (y 1).val = (y 1).val; rw [e1]; omega

/-- The hidden-projection weights' block at any point is the whole array. -/
theorem whole5 (c : Dev nD) (t : Fin cfg0.N) : (iblk m c 5 t : Vec Ideal S5120x1024 .bf16) = V m c main_v1 := by
  obtain ⟨-, -, -, -, -, -, -, -, -, -, e0, e1, -⟩ := idx_facts t
  funext y
  unfold iblk
  rw [View.read_apply]
  show V m c main_v1 _ = V m c main_v1 y
  congr 1
  funext a
  apply Fin.ext
  match a with
  | ⟨0, _⟩ => show win0_5.index t (0 : Fin 2) * 5120 + 1 * (y 0).val = (y 0).val; rw [e0]; omega
  | ⟨1, _⟩ => show win0_5.index t (1 : Fin 2) * 1024 + 1 * (y 1).val = (y 1).val; rw [e1]; omega

/-- The first bias's block at any point is the whole vector. -/
theorem whole6 (c : Dev nD) (t : Fin cfg0.N) : (iblk m c 6 t : Vec Ideal S5120 .f32) = V m c main_arg5 := by
  obtain ⟨-, -, -, -, -, -, -, -, -, -, -, -, e0, -⟩ := idx_facts t
  funext y
  unfold iblk
  rw [View.read_apply]
  show V m c main_arg5 _ = V m c main_arg5 y
  congr 1
  funext a
  apply Fin.ext
  match a with
  | ⟨0, _⟩ => show win0_6.index t (0 : Fin 1) * 5120 + 1 * (y 0).val = (y 0).val; rw [e0]; omega

/-- The second bias's block at any point is the whole vector. -/
theorem whole7 (c : Dev nD) (t : Fin cfg0.N) : (iblk m c 7 t : Vec Ideal S5120 .f32) = V m c main_arg7 := by
  obtain ⟨-, -, -, -, -, -, -, -, -, -, -, -, -, e0, -⟩ := idx_facts t
  funext y
  unfold iblk
  rw [View.read_apply]
  show V m c main_arg7 _ = V m c main_arg7 y
  congr 1
  funext a
  apply Fin.ext
  match a with
  | ⟨0, _⟩ => show win0_7.index t (0 : Fin 1) * 5120 + 1 * (y 0).val = (y 0).val; rw [e0]; omega

/-! ## What each point writes back -/

/-- The specification's hidden-state array of the arrays the region finds. -/
abbrev hiddenV (c : Dev nD) : Vec Ideal S16384x1024 .f32 :=
  hiddenArr (V m c main_arg0) (V m c main_arg1) (V m c main_arg2) (V m c main_arg3) (V m c main_v0) (V m c main_v1) (V m c main_arg5) (V m c main_arg7)

/-- The specification's cell-state array of the arrays the region finds. -/
abbrev cellV (c : Dev nD) : Vec Ideal S16384x1024 .f32 :=
  cellArr (V m c main_arg0) (V m c main_arg1) (V m c main_arg2) (V m c main_arg3) (V m c main_v0) (V m c main_v1) (V m c main_arg5) (V m c main_arg7)

/-- Point t writes back block t of the specification's hidden-state array. -/
theorem flushed8_eq (c : Dev nD) (t : Fin cfg0.N) :
    (dats m 0 c).flushed 8 t = ((cfg0.win 8).blk t).view.read (Elt Ideal) (hiddenV m c) := by
  obtain ⟨-, -, -, -, -, -, -, -, -, -, -, -, -, -, e0, e1, -⟩ := idx_facts t
  rw [flushed8]
  funext y
  obtain ⟨r, j, rfl⟩ : ∃ (r : Fin 256) (j : Fin 1024), y = ix2 r j := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 r j)
    = hiddenV m c (((cfg0.win 8).blk t).view.emb (ix2 r j))
  have he : ((cfg0.win 8).blk t).view.emb (ix2 r j) = ix2 (brow t r) j := by
    funext a
    apply Fin.ext
    match a with
    | ⟨0, _⟩ => show win0_8.index t (0 : Fin 2) * 256 + 1 * r.val = 256 * t.val + r.val; rw [e0]; omega
    | ⟨1, _⟩ => show win0_8.index t (1 : Fin 2) * 1024 + 1 * j.val = j.val; rw [e1]; omega
  rw [he]
  refine (out8_apply (iblk m c 0 t) (iblk m c 1 t) (iblk m c 2 t) (iblk m c 3 t) (iblk m c 4 t) (iblk m c 5 t) (iblk m c 6 t) (iblk m c 7 t) r j).trans ?_
  rw [rows0 m c t r, rows1 m c t r, rows2 m c t r, rows3 m c t r, whole4 m c t, whole5 m c t, whole6 m c t, whole7 m c t]
  rfl

/-- Point t writes back block t of the specification's cell-state array. -/
theorem flushed9_eq (c : Dev nD) (t : Fin cfg0.N) :
    (dats m 0 c).flushed 9 t = ((cfg0.win 9).blk t).view.read (Elt Ideal) (cellV m c) := by
  obtain ⟨-, -, -, -, -, -, -, -, -, -, -, -, -, -, -, -, e0, e1⟩ := idx_facts t
  rw [flushed9]
  funext y
  obtain ⟨r, j, rfl⟩ : ∃ (r : Fin 256) (j : Fin 1024), y = ix2 r j := ⟨y 0, y 1, eq_ix2 y⟩
  show out0_9 (iblk m c 0 t) (iblk m c 1 t) (iblk m c 2 t) (iblk m c 3 t) (iblk m c 4 t) (iblk m c 5 t) (iblk m c 6 t) (iblk m c 7 t) (ix2 r j)
    = cellV m c (((cfg0.win 9).blk t).view.emb (ix2 r j))
  have he : ((cfg0.win 9).blk t).view.emb (ix2 r j) = ix2 (brow t r) j := by
    funext a
    apply Fin.ext
    match a with
    | ⟨0, _⟩ => show win0_9.index t (0 : Fin 2) * 256 + 1 * r.val = 256 * t.val + r.val; rw [e0]; omega
    | ⟨1, _⟩ => show win0_9.index t (1 : Fin 2) * 1024 + 1 * j.val = j.val; rw [e1]; omega
  rw [he]
  refine (out9_apply (iblk m c 0 t) (iblk m c 1 t) (iblk m c 2 t) (iblk m c 3 t) (iblk m c 4 t) (iblk m c 5 t) (iblk m c 6 t) (iblk m c 7 t) r j).trans ?_
  rw [rows0 m c t r, rows1 m c t r, rows2 m c t r, rows3 m c t r, whole4 m c t, whole5 m c t, whole6 m c t, whole7 m c t]
  rfl

/-! ## The blocks tile the arrays -/

/-- An index of the hidden-state array is in point t's block iff each coordinate is in the block's range on its axis. -/
theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v2_0).slice (win0_8.rect t)).set ↔ _
  rw [View.set_slice_whole, Rect.mem_set_unit]
  exact Iff.rfl

/-- The same for the cell-state array. -/
theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v2_1).slice (win0_9.rect t)).set ↔ _
  rw [View.set_slice_whole, Rect.mem_set_unit]
  exact Iff.rfl

/-- Every index of the hidden-state array is in the block of the point its row's quotient by 256 names. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ := point_of_block ⟨(i 0).val / 256, by omega⟩
  have ht' : t.val = (i 0).val / 256 := ht
  obtain ⟨-, -, -, -, -, -, -, -, -, -, -, -, -, -, e0, e1, -⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; rw [e0]; omega
  | ⟨1, _⟩ => show win0_8.index t (1 : Fin 2) * 1024 ≤ (i 1).val ∧ (i 1).val < win0_8.index t (1 : Fin 2) * 1024 + 1024; rw [e1]; omega

/-- The same for the cell-state array. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  obtain ⟨t, ht⟩ := point_of_block ⟨(i 0).val / 256, by omega⟩
  have ht' : t.val = (i 0).val / 256 := ht
  obtain ⟨-, -, -, -, -, -, -, -, -, -, -, -, -, -, -, -, e0, e1⟩ := idx_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; rw [e0]; omega
  | ⟨1, _⟩ => show win0_9.index t (1 : Fin 2) * 1024 ≤ (i 1).val ∧ (i 1).val < win0_9.index t (1 : Fin 2) * 1024 + 1024; rw [e1]; omega

/-! ## The arrays after the run -/

/-- The input-projection weights the region finds are the argument, narrowed to bf16: on extended reals, the argument. -/
theorem V_wx (c : Dev nD) : (V m c main_v0 : S5120x1024.Idx → EReal) = m ((c : Thread nD τ).loc main_arg4) := by
  have e : (V m c main_v0 : S5120x1024.Idx → EReal)
      = (truncf .bf16 (m ((c : Thread nD τ).loc main_arg4) : FVec Ideal S5120x1024 .f32) bitsLt_bf16_f32 : FVec Ideal S5120x1024 .bf16) := by
    dsimp only [V, hostOps0]; after_results
  rw [e]
  rfl

/-- The hidden-projection weights the region finds are the argument, narrowed to bf16: on extended reals, the argument. -/
theorem V_uh (c : Dev nD) : (V m c main_v1 : S5120x1024.Idx → EReal) = m ((c : Thread nD τ).loc main_arg6) := by
  have e : (V m c main_v1 : S5120x1024.Idx → EReal)
      = (truncf .bf16 (m ((c : Thread nD τ).loc main_arg6) : FVec Ideal S5120x1024 .f32) bitsLt_bf16_f32 : FVec Ideal S5120x1024 .bf16) := by
    dsimp only [V, hostOps0]; after_results
  rw [e]
  rfl

/-- The specification's hidden-state array of the program's arguments. -/
abbrev hiddenM (c : Dev nD) : Vec Ideal S16384x1024 .f32 :=
  hiddenArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg5)) (m ((c : Thread nD τ).loc main_arg7))

/-- The specification's cell-state array of the program's arguments. -/
abbrev cellM (c : Dev nD) : Vec Ideal S16384x1024 .f32 :=
  cellArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg5)) (m ((c : Thread nD τ).loc main_arg7))

theorem hiddenV_eq (c : Dev nD) : hiddenV m c = hiddenM m c := by
  unfold hiddenV hiddenM
  rw [V_main_arg0, V_main_arg1, V_main_arg2, V_main_arg3, V_main_arg5, V_main_arg7, V_wx, V_uh]

theorem cellV_eq (c : Dev nD) : cellV m c = cellM m c := by
  unfold cellV cellM
  rw [V_main_arg0, V_main_arg1, V_main_arg2, V_main_arg3, V_main_arg5, V_main_arg7, V_wx, V_uh]

/-- The first result array ends holding the specification's hidden state of the arguments. -/
theorem final8 (c : Dev nD) : (dats m 0 c).arrAt 8 cfg0.N = hiddenM m c :=
  ((dats m 0 c).arrAt_eq_of_cover 8 (hiddenV m c) (fun t _ => flushed8_eq m c t) (cover8)).trans (hiddenV_eq m c)

/-- The second result array ends holding the specification's cell state of the arguments. -/
theorem final9 (c : Dev nD) : (dats m 0 c).arrAt 9 cfg0.N = cellM m c :=
  ((dats m 0 c).arrAt_eq_of_cover 9 (cellV m c) (fun t _ => flushed9_eq m c t) (cover9)).trans (cellV_eq m c)

/-- The kernel's run: both results at the specification of the arguments, the arguments unchanged. -/
theorem run : θ_run defs (onTc (τ := τ) (main (F := Ideal))) ⟨m, fun _ => 0, ρ⟩ fun r => ∀ c : Dev nD,
      r.2.mem ((c : Thread nD τ).loc main_v2_0) = hiddenM m c
      ∧ r.2.mem ((c : Thread nD τ).loc main_v2_1) = cellM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (run_blocks m ρ)

end Cert.KernelIdeal.Blocks

end
-- ==== Proof.RefCell.lean ====
/-
  The reference computes the specification: each of its two results, read at an index (b, j), is the
  specification's value for batch row b at unit j.

  The reference forms the stacked pre-activations over the whole batch as
  ((x·Wxᵀ + bx) + h·Uhᵀ) + bh — the specification's four terms in another order —, cuts the five gates out as
  column ranges [0, 1024), [1024, 2048), …, spells each logistic function as 1 / (1 + exp (−z)), and combines
  the gates exactly as the specification does.
-/
import proofs.«100891_j49306224558689_1_alg».proof.Proof.Gen.ReferenceIdeal.Read
import proofs.«100891_j49306224558689_1_alg».proof.Proof.LstmSpec
import Idealize.ShloMosaic.Lib.ValueIdx
import Idealize.ShloMosaic.Lib.IdealHost

noncomputable section

open scoped BigOperators

namespace Cert.ReferenceIdeal.RefCell

open Cert.ReferenceIdeal Cert.ReferenceIdeal.Gen Cert.ReferenceIdeal.Read Idealize.ShloMosaic Idealize.ShloMosaic.ValueIdx Cert.Lstm

variable (x0 x1 x2 x3 : Vec Ideal S16384x1024 .f32) (x4 x6 : Vec Ideal S5120x1024 .f32) (x5 x7 : Vec Ideal S5120 .f32)

/-! ## Where each operation reads its operands, in coordinates -/

theorem lidx_v0 (b : Fin 16384) (g : Fin 5120) (k : Fin 1024) : lidx_main_v0 (ix2 b g) k = ix2 b k :=
  funext fun a => by match a with | ⟨0, _⟩ => rfl | ⟨1, _⟩ => rfl
theorem ridx_v0 (b : Fin 16384) (g : Fin 5120) (k : Fin 1024) : ridx_main_v0 (ix2 b g) k = ix2 g k :=
  funext fun a => by match a with | ⟨0, _⟩ => rfl | ⟨1, _⟩ => rfl
theorem lidx_v4 (b : Fin 16384) (g : Fin 5120) (k : Fin 1024) : lidx_main_v4 (ix2 b g) k = ix2 b k :=
  funext fun a => by match a with | ⟨0, _⟩ => rfl | ⟨1, _⟩ => rfl
theorem ridx_v4 (b : Fin 16384) (g : Fin 5120) (k : Fin 1024) : ridx_main_v4 (ix2 b g) k = ix2 g k :=
  funext fun a => by match a with | ⟨0, _⟩ => rfl | ⟨1, _⟩ => rfl
theorem bias_v2 (b : Fin 16384) (g : Fin 5120) : idx_main_v1 (idx_main_v2 (ix2 b g)) = ix1 g :=
  funext fun a => by match a with | ⟨0, _⟩ => rfl
theorem bias_v7 (b : Fin 16384) (g : Fin 5120) : idx_main_v6 (idx_main_v7 (ix2 b g)) = ix1 g :=
  funext fun a => by match a with | ⟨0, _⟩ => rfl
theorem slice_v9 (b : Fin 16384) (j : Fin 1024) : idx_main_v9 (ix2 b j) = ix2 b (colI j) :=
  funext fun a => by match a with | ⟨0, _⟩ => rfl | ⟨1, _⟩ => rfl
theorem slice_v10 (b : Fin 16384) (j : Fin 1024) : idx_main_v10 (ix2 b j) = ix2 b (colF j) :=
  funext fun a => by
    match a with
    | ⟨0, _⟩ => rfl
    | ⟨1, _⟩ => exact Fin.ext (show 1024 + j.val = j.val + 1024 by omega)
theorem slice_v11 (b : Fin 16384) (j : Fin 1024) : idx_main_v11 (ix2 b j) = ix2 b (colO j) :=
  funext fun a => by
    match a with
    | ⟨0, _⟩ => rfl
    | ⟨1, _⟩ => exact Fin.ext (show 2048 + j.val = j.val + 2048 by omega)
theorem slice_v12 (b : Fin 16384) (j : Fin 1024) : idx_main_v12 (ix2 b j) = ix2 b (colC j) :=
  funext fun a => by
    match a with
    | ⟨0, _⟩ => rfl
    | ⟨1, _⟩ => exact Fin.ext (show 3072 + j.val = j.val + 3072 by omega)
theorem slice_v13 (b : Fin 16384) (j : Fin 1024) : idx_main_v13 (ix2 b j) = ix2 b (colS j) :=
  funext fun a => by
    match a with
    | ⟨0, _⟩ => rfl
    | ⟨1, _⟩ => exact Fin.ext (show 4096 + j.val = j.val + 4096 by omega)

/-! ## The stacked pre-activations -/

/-- The reference's pre-activation array at (b, g) is the specification's, for row b of x and of the previous hidden state. -/
theorem pre_apply (b : Fin 16384) (g : Fin 5120) :
    val_main_v8 (F := Ideal) x0 x1 x4 x5 x6 x7 (ix2 b g) = pre (row x0 b) (row x1 b) x4 x6 x5 x7 g := by
  rw [val_main_v8_apply, val_main_v5_apply, val_main_v3_apply, val_main_v0_apply, val_main_v4_apply, val_main_v2_apply,
    val_main_v1_apply, val_main_v7_apply, val_main_v6_apply]
  simp only [lidx_v0, ridx_v0, lidx_v4, ridx_v4, bias_v2, bias_v7]
  exact pre_other_order (row x0 b) (row x1 b) x4 x6 x5 x7 g

/-! ## The five gates -/

/-- The input gate: the logistic function of the first column range. -/
theorem gateI_apply (b : Fin 16384) (j : Fin 1024) :
    val_main_v19 (F := Ideal) x0 x1 x4 x5 x6 x7 (ix2 b j) = Ideal.logistic (pre (row x0 b) (row x1 b) x4 x6 x5 x7 (colI j)) := by
  rw [val_main_v19_apply, val_main_v18_apply, val_main_cst_0_apply, val_main_v17_apply, val_main_v16_apply, val_main_cst_apply,
    val_main_v15_apply, val_main_v14_apply, val_main_v9_apply, slice_v9, pre_apply]
  exact logistic_spelled _

/-- The forget gate: the logistic function of the second column range. -/
theorem gateF_apply (b : Fin 16384) (j : Fin 1024) :
    val_main_v25 (F := Ideal) x0 x1 x4 x5 x6 x7 (ix2 b j) = Ideal.logistic (pre (row x0 b) (row x1 b) x4 x6 x5 x7 (colF j)) := by
  rw [val_main_v25_apply, val_main_v24_apply, val_main_cst_2_apply, val_main_v23_apply, val_main_v22_apply, val_main_cst_1_apply,
    val_main_v21_apply, val_main_v20_apply, val_main_v10_apply, slice_v10, pre_apply]
  exact logistic_spelled _

/-- The output gate: the logistic function of the third column range. -/
theorem gateO_apply (b : Fin 16384) (j : Fin 1024) :
    val_main_v31 (F := Ideal) x0 x1 x4 x5 x6 x7 (ix2 b j) = Ideal.logistic (pre (row x0 b) (row x1 b) x4 x6 x5 x7 (colO j)) := by
  rw [val_main_v31_apply, val_main_v30_apply, val_main_cst_4_apply, val_main_v29_apply, val_main_v28_apply, val_main_cst_3_apply,
    val_main_v27_apply, val_main_v26_apply, val_main_v11_apply, slice_v11, pre_apply]
  exact logistic_spelled _

/-- The candidate: the hyperbolic tangent of the fourth column range. -/
theorem cand_apply (b : Fin 16384) (j : Fin 1024) :
    val_main_v32 (F := Ideal) x0 x1 x4 x5 x6 x7 (ix2 b j) = Ideal.tanh (pre (row x0 b) (row x1 b) x4 x6 x5 x7 (colC j)) := by
  rw [val_main_v32_apply, val_main_v12_apply, slice_v12, pre_apply]
  rfl

/-- The scale gate: the logistic function of the fifth column range. -/
theorem gateS_apply (b : Fin 16384) (j : Fin 1024) :
    val_main_v38 (F := Ideal) x0 x1 x4 x5 x6 x7 (ix2 b j) = Ideal.logistic (pre (row x0 b) (row x1 b) x4 x6 x5 x7 (colS j)) := by
  rw [val_main_v38_apply, val_main_v37_apply, val_main_cst_6_apply, val_main_v36_apply, val_main_v35_apply, val_main_cst_5_apply,
    val_main_v34_apply, val_main_v33_apply, val_main_v13_apply, slice_v13, pre_apply]
  exact logistic_spelled _

/-! ## The two results -/

/-- The reference's new cell state at (b, j) is the specification's. -/
theorem cell_apply (b : Fin 16384) (j : Fin 1024) :
    val_main_v43 (F := Ideal) x0 x1 x2 x3 x4 x5 x6 x7 (ix2 b j)
      = cell (row x0 b) (row x1 b) (row x2 b) (row x3 b) x4 x6 x5 x7 j := by
  rw [val_main_v43_apply, val_main_v40_apply, val_main_v42_apply, val_main_v41_apply, val_main_v39_apply,
    gateF_apply, gateI_apply, cand_apply, gateS_apply]
  rfl

/-- The reference's new hidden state at (b, j) is the specification's. -/
theorem hidden_apply (b : Fin 16384) (j : Fin 1024) :
    val_main_v45 (F := Ideal) x0 x1 x2 x3 x4 x5 x6 x7 (ix2 b j)
      = hidden (row x0 b) (row x1 b) (row x2 b) (row x3 b) x4 x6 x5 x7 j := by
  rw [val_main_v45_apply, val_main_v44_apply, gateO_apply, cell_apply]
  rfl

/-- The reference's second result, the new cell state, is the specification's array. -/
theorem cell_eq : val_main_v43 (F := Ideal) x0 x1 x2 x3 x4 x5 x6 x7 = cellArr x0 x1 x2 x3 x4 x6 x5 x7 := by
  funext i
  obtain ⟨b, j, rfl⟩ : ∃ (b : Fin 16384) (j : Fin 1024), i = ix2 b j := ⟨i 0, i 1, eq_ix2 i⟩
  exact cell_apply x0 x1 x2 x3 x4 x6 x5 x7 b j

/-- The reference's first result, the new hidden state, is the specification's array. -/
theorem hidden_eq : val_main_v45 (F := Ideal) x0 x1 x2 x3 x4 x5 x6 x7 = hiddenArr x0 x1 x2 x3 x4 x6 x5 x7 := by
  funext i
  obtain ⟨b, j, rfl⟩ : ∃ (b : Fin 16384) (j : Fin 1024), i = ix2 b j := ⟨i 0, i 1, eq_ix2 i⟩
  exact hidden_apply x0 x1 x2 x3 x4 x6 x5 x7 b j

end Cert.ReferenceIdeal.RefCell

end
-- ==== Proof.lean ====
/-
  One step of an LSTM cell with a fifth, "scale" gate, over a batch of 16384 rows of width 1024: the kernel against
  the jnp reference, as extended reals.

  Both programs compute, for every batch row b and unit j,

      pre g    = Σₖ x (b, k) · Wx (g, k)  +  Σₖ h (b, k) · Uh (g, k)  +  bx g  +  bh g        (g over 5·1024 stacked gate columns)
      cell j   = σ (pre (forget j)) · c (b, j)  +  (σ (pre (input j)) · tanh (pre (candidate j))) · (σ (pre (scale j)) · dw (b, j))
      hidden j = σ (pre (output j)) · tanh (cell j)

  and return (hidden, cell). They differ in three spellings, none of which changes a value on the extended reals:
  * the kernel narrows x, h and both weight arrays to bf16 before multiplying — a change of float format is the
    identity there — and contracts into a zero accumulator, which is the reference's plain sum over k;
  * the kernel sums the four terms of "pre" as ((xW + hU) + bx) + bh, the reference as ((xW + bx) + hU) + bh:
    commutativity and associativity of +, which hold at ±∞ too, so the precondition is never opened;
  * the kernel applies the logistic function as one operation, the reference spells it 1 / (1 + exp (−z)): the ideal
    instance defines the former as the latter.
  The kernel works on 64 blocks of 256 batch rows; a row of the result depends on the same row of the batch
  arguments only, so block t of the result is the specification on block t of the arguments, and the blocks tile
  the arrays.

  The frames of the two kernel programs are the generated ones; the reference's is its generated run with the
  results dropped. The ideal pass rewrote nothing, so the kernel's idealization has nothing to preserve.
-/
import proofs.«100891_j49306224558689_1_alg».proof.Defs
import proofs.«100891_j49306224558689_1_alg».proof.Proof.Gen.Kernel
import proofs.«100891_j49306224558689_1_alg».proof.Proof.Gen.Kernel.Skeleton
import proofs.«100891_j49306224558689_1_alg».proof.Proof.Gen.Kernel.Launch
import proofs.«100891_j49306224558689_1_alg».proof.Proof.Gen.Kernel.Points
import proofs.«100891_j49306224558689_1_alg».proof.Proof.Gen.Kernel.Frame
import proofs.«100891_j49306224558689_1_alg».proof.Proof.Gen.KernelIdeal
import proofs.«100891_j49306224558689_1_alg».proof.Proof.Gen.KernelIdeal.Skeleton
import proofs.«100891_j49306224558689_1_alg».proof.Proof.Gen.KernelIdeal.Launch
import proofs.«100891_j49306224558689_1_alg».proof.Proof.Gen.KernelIdeal.Points
import proofs.«100891_j49306224558689_1_alg».proof.Proof.Gen.KernelIdeal.Frame
import proofs.«100891_j49306224558689_1_alg».proof.Proof.Gen.ReferenceIdeal
import proofs.«100891_j49306224558689_1_alg».proof.Proof.Gen.Pre_finite_inputs
import proofs.«100891_j49306224558689_1_alg».proof.Proof.Gen.KernelIdeal.Value
import proofs.«100891_j49306224558689_1_alg».proof.Proof.Gen.ReferenceIdeal.Run
import proofs.«100891_j49306224558689_1_alg».proof.Proof.Gen.ReferenceIdeal.Read
import proofs.«100891_j49306224558689_1_alg».proof.Proof.KernelBlocks
import proofs.«100891_j49306224558689_1_alg».proof.Proof.RefCell
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eight arguments both programs end with the specification's hidden state and
    cell state of those arguments. -/
theorem algebraic : Cert.algebraic_KernelIdeal_ReferenceIdeal := by
  intro m ρ m' ρ' _ hagree
  refine ⟨fun c => Cert.KernelIdeal.Blocks.hiddenM m c, fun c => Cert.KernelIdeal.Blocks.cellM m c,
    Cert.KernelIdeal.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v45_eq, h0, h1, h2, h3, h4, h5, h6, h7]
    exact Cert.ReferenceIdeal.RefCell.hidden_eq _ _ _ _ _ _ _ _
  · obtain ⟨h0, h1, h2, h3, h4, h5, h6, h7⟩ := hagree c
    rw [h0, h1, h2, h3, h4, h5, h6, h7]
    exact (Cert.ReferenceIdeal.Read.val_main_v43_eq _ _ _ _ _ _ _ _).trans (Cert.ReferenceIdeal.RefCell.cell_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
